-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S4096x1 : Shape := ⟨2, ![4096, 1]⟩
abbrev S1024x4096 : Shape := ⟨2, ![1024, 4096]⟩
abbrev S1024x1 : Shape := ⟨2, ![1024, 1]⟩
abbrev S1024 : Shape := ⟨1, ![1024]⟩
abbrev S1x4096 : Shape := ⟨2, ![1, 4096]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x1, .f32⟩
  | .hbm, ⟨4, _⟩ => ⟨S4096x1, .f32⟩
  | .hbm, ⟨5, _⟩ => ⟨S1x4096, .f32⟩
  | .hbm, ⟨6, _⟩ => ⟨S1x4096, .f32⟩
  | .hbm, ⟨7, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S1024x4096, .f32⟩
  | .local _ .vmem, ⟨5, _⟩ => ⟨S1024x4096, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1x4096, .f32⟩
  | .local _ .vmem, ⟨11, _⟩ => ⟨S1x4096, .f32⟩
  | .local _ .vmem, ⟨12, _⟩ => ⟨S1024x4096, .f32⟩
  | .local _ .vmem, ⟨13, _⟩ => ⟨S1024x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S4096x1_S1x4096 : S4096x1.ShapeCasts S1x4096
  shapeCasts_S4096_S1x4096 : S4096.ShapeCasts S1x4096
  shapeCasts_S1024x1_S1024x1 : S1024x1.ShapeCasts S1024x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .f32 = 32 ∨ (Rect.block (s := S4096x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1.size a ≤ S4096x1.size a
  hwx2_0 : ∀ i : grid2.Coords, EltTy.bits .f32 = 32 ∨ (Rect.block (s := S4096x1) S1024x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x4096.size a ≤ S4096x4096.size a
  hwx2_3 : ∀ i : grid2.Coords, EltTy.bits .f32 = 32 ∨ (Rect.block (s := S4096x4096) S1024x4096.size (cc2_transform_3 i) (hinb2_3 i)).WholeWords (EltTy.packing .f32)

variable [Facts₀]

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)

variable [Facts₀]

class Facts : Prop extends Facts₀ where

variable [Facts]
-- ==== Proof.LibMatrixRead.lean ====
/-
  Layout operations of matrices read at an index given by coordinates, for the forms Lib/ValueLayout.lean leaves out:
  a vector made a column (`[a] → [a, 1]`), a column spread over the lanes (`[a, 1] → [a, b]`), three matrices of equal
  height laid side by side read at a column, and the rows of a matrix taken by an index column (`x[idx]` of a
  matrix: a gather with the first axis collapsed and start-indexed, the second an offset axis taken whole).
  Nothing here names a program.
-/
import Idealize.ShloMosaic.Lib.ValueLayout
import Idealize.ShloMosaic.Lib.StableHlo.Predicate

namespace Cert.MatrixRead

open Idealize.ShloMosaic Idealize.ShloMosaic.ValueIdx

variable {α : Type}

/-- The one coordinate of a rank-1 index is below the extent. -/
theorem idx1_lt {n : ℕ} (j : (⟨1, ![n]⟩ : Shape).Idx) : (j 0).val < n := (j 0).isLt

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Three matrices side by side -/

/-- Three `[n, 128]` matrices laid side by side along the second axis read, at `(r, k)`, the piece whose span of 128 columns
    holds `k`, at `k` less the columns before it. -/
theorem concat3_128_apply {n : ℕ} (x₁ x₂ x₃ : (⟨2, ![n, 128]⟩ : Shape).Idx → α)
    (h : Shape.Concatenates (([⟨⟨2, ![n, 128]⟩, x₁⟩, ⟨⟨2, ![n, 128]⟩, x₂⟩, ⟨⟨2, ![n, 128]⟩, x₃⟩] :
      List ((s : Shape) × (s.Idx → α))).map (·.1)) ⟨2, ![n, 384]⟩ 1)
    (r : Fin n) (k : Fin 384) :
    concatenate ⟨2, ![n, 384]⟩ 1 [⟨⟨2, ![n, 128]⟩, x₁⟩, ⟨⟨2, ![n, 128]⟩, x₂⟩, ⟨⟨2, ![n, 128]⟩, x₃⟩] h (ix2 r k)
      = if h1 : k.val < 128 then x₁ (ix2 r ⟨k.val, h1⟩)
        else if h2 : k.val < 256 then x₂ (ix2 r ⟨k.val - 128, by omega⟩)
        else x₃ (ix2 r ⟨k.val - 256, by have := k.isLt; omega⟩) := by
  have hk := k.isLt
  split
  · next h1 =>
    refine concatenate_apply_piece (1 : Fin 2) _ h (ix2 r k) 0 (by simp) ⟨2, ![n, 128]⟩ x₁ rfl rfl 0 rfl
      (ix2 r ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (1 : Fin 2) _ h (ix2 r k) 1 (by simp) ⟨2, ![n, 128]⟩ x₂ rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (1 : Fin 2) _ h (ix2 r k) 2 (by simp) ⟨2, ![n, 128]⟩ x₃ rfl rfl 256 rfl
        (ix2 r ⟨k.val - 256, by omega⟩) (fun b hb => ?_) ?_
      · match b with
        | ⟨0, _⟩ => rfl
        | ⟨1, _⟩ => exact absurd rfl hb
      · show 256 + (k.val - 256) = k.val
        omega

/-! ## The rows of a matrix taken by an index column -/

/-- The gather that is `x[idx]` of an `[N, C]` matrix by an `[n, 1]` column of indices (first operand axis collapsed and
    start-indexed, the second an offset axis, the index vector on axis 1: the printed dimension numbers, each by `rfl`)
    reads, for result position `(p, c)`, operand ROW `idx[p]` read signed and held inside `0 … N - 1` … -/
theorem gather_rows_axis0 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (0 : Fin 2)).val = min (idx (ix2 p (0 : Fin 1))).toInt.toNat (N - 1) := by
  have hsl : d.sliceSizes 0 = 1 := d.slice_collapsed 0 (by rw [hcoll]; exact List.mem_singleton.mpr rfl)
  have hk : (0 : Fin 2) ∉ d.sKept := by rw [GatherDims.mem_sKept, hcoll]; simp
  obtain ⟨offD, collD, obD, sibD, simD, ivd, sl, wf⟩ := d
  simp only at hoff hcoll hob hsim hivd hsl
  subst hoff hcoll hob hsim hivd
  simp only [GatherDims.operandIdx, GatherDims.start, GatherDims.batchCoord, GatherDims.offCoord]
  simp only [GatherDims.mem_sKept, List.mem_singleton, List.not_mem_nil, dite_true, dite_false, not_true_eq_false, false_and, hsl, Nat.add_zero, List.append_nil, ↓reduceDIte]
  rw [dif_neg hk, Nat.add_zero]
  show min (idx _).toInt.toNat (N - 1) = _
  congr 4
  funext b
  apply Fin.ext
  match b with
  | ⟨0, _⟩ => rfl
  | ⟨1, _⟩ => rfl

/-- A one-element list read at any valid position is its element. -/
theorem getElem_singleton_any {β : Type} (b : β) (k : ℕ) (h : k < [b].length) : [b][k]'h = b := by
  have hk : k = 0 := by simpa using h
  subst hk; rfl

/-- … and operand COLUMN `c`: the offset axis is taken whole and nothing is added to it. -/
theorem gather_rows_axis1 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (1 : Fin 2)).val = c.val := by
  have hk : (1 : Fin 2) ∈ d.sKept := by rw [GatherDims.mem_sKept, hcoll, hob]; simp
  have hm : (1 : Fin 2) ∉ d.startIndexMap := by rw [hsim]; simp
  have hb : (1 : Fin 2) ∉ d.operandBatchingDims := by rw [hob]; simp
  obtain ⟨offD, collD, obD, sibD, simD, ivd, sl, wf⟩ := d
  simp only at hoff hcoll hob hsim hivd
  subst hoff hcoll hob hsim hivd
  simp only [GatherDims.operandIdx, GatherDims.start, GatherDims.batchCoord, GatherDims.offCoord]
  rw [dif_neg hm, dif_neg hb, dif_pos hk]
  simp only [Nat.zero_add]
  rw [getElem_singleton_any]
  rfl

/-- So the gathered matrix at `(p, c)` is the table at (the held row `idx[p]`, `c`): jnp's `x[idx]` with out-of-range
    positions held at the nearest row. -/
theorem gather_rows_apply {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  apply Fin.ext
  match a with
  | ⟨0, _⟩ => exact gather_rows_axis0 d hoff hcoll hob hsim hivd idx p c
  | ⟨1, _⟩ => exact gather_rows_axis1 d hoff hcoll hob hsim hivd idx p c

end Cert.MatrixRead
-- ==== Proof.Payloads.lean ====
/-
  The three kernel bodies read at an index, at the exact instance (floats are extended reals).

  The two row-sum bodies store a column: entry (p, ·) of the stored block is the sum over the 4096 lanes of row p of the
  loaded block. The combining body stores a full block: entry (p, q) is (column entry p + first row entry q) times the second
  row's entry q. Each statement is over variables of the literal vector types, with the index given by its coordinates.
-/
import proofs.«121372_j30133490549219_1_alg».proof.Proof.Gen.KernelIdeal.Skeleton
import proofs.«121372_j30133490549219_1_alg».proof.Proof.LibMatrixRead
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.MatrixRead

/-- The column of row sums of a 4096 × 4096 array: entry `(r, ·)` is `∑ k, x (r, k)`. -/
abbrev rowSums (x : S4096x4096.Idx → EReal) : S4096x1.Idx → EReal := fun i => ∑ k : Fin 4096, x (ix2 (i 0) k)

/-- The zero offset of a whole-block access, as a constant function. -/
theorem hz : (![0, 0] : Fin 2 → Nat) = fun _ => 0 := funext fun a => by fin_cases a <;> rfl

/-- The source index over result row `p` with lane `k` inserted on the reduced axis is `(p, k)`. -/
theorem lift_row (h : S1024x4096.Reduces [1] S1024) (p : Fin 1024) (k : Fin 4096) :
    h.lift (ix1 p) k = ix2 p k := by
  funext a
  apply Fin.ext
  match a with
  | ⟨0, _⟩ => rfl
  | ⟨1, _⟩ => rfl

/-- First row-sum body: the stored column at `(p, u)` is the sum of row `p` of the loaded block. -/
theorem rowsum0_apply (x0 : FVec Ideal S1024x4096 .f32) (p : Fin 1024) (u : Fin 1) :
    k0_pay1 (F := Ideal) x0 (ix2 p u) = ∑ k : Fin 4096, x0 (ix2 p k) := by
  unfold k0_pay1
  refine (shapeCast_a_a1_apply _ _ p u).trans ?_
  refine (Ideal.multiReduction_add_single x0 _ _ _ _ (ix1 p)).trans ?_
  exact Finset.sum_congr rfl fun k _ => congrArg x0 (lift_row _ p k)

/-- Second row-sum body: the same function of its own loaded block. -/
theorem rowsum1_apply (x0 : FVec Ideal S1024x4096 .f32) (p : Fin 1024) (u : Fin 1) :
    k1_pay1 (F := Ideal) x0 (ix2 p u) = ∑ k : Fin 4096, x0 (ix2 p k) := by
  unfold k1_pay1
  refine (shapeCast_a_a1_apply _ _ p u).trans ?_
  refine (Ideal.multiReduction_add_single x0 _ _ _ _ (ix1 p)).trans ?_
  exact Finset.sum_congr rfl fun k _ => congrArg x0 (lift_row _ p k)

/-- The combining body: entry `(p, q)` of the stored block is `(col p + row₁ q) · row₂ q`. -/
theorem combine_apply (x0 : FVec Ideal S1024x1 .f32) (x1 x2 : FVec Ideal S1x4096 .f32) (p : Fin 1024) (q : Fin 4096) :
    k2_pay1 (F := Ideal) x0 x1 x2 (ix2 p q)
      = (x0 (ix2 p (0 : Fin 1)) + x1 (ix2 (0 : Fin 1) q)) * x2 (ix2 (0 : Fin 1) q) := by
  unfold k2_pay1
  rw [mulf_apply, addf_apply, broadcastTo_a1_ab_apply, broadcastTo_1b_ab_apply, broadcastTo_1b_ab_apply,
    shapeCast_self, shapeCast_self, shapeCast_self]

end Cert.KernelIdeal.Body

end
-- ==== Proof.RowSums0.lean ====
/-
  The first row-sum region, blocks to array. The region reads a 4096 × 4096 array in four blocks of 1024 rows and writes,
  for each block, the column of that block's row sums; the four column blocks tile the 4096 × 1 output. So after the
  region the output array is ONE function of the array read: entry (r, ·) is the sum of row r. Stated at any contents
  `V` of the core's buffers when the region is entered.
-/
import proofs.«121372_j30133490549219_1_alg».proof.Proof.Gen.KernelIdeal.Frame
import proofs.«121372_j30133490549219_1_alg».proof.Proof.Payloads
import Idealize.ShloMosaic.Lib.Pipeline.Value

set_option maxRecDepth 16384

noncomputable section

namespace Cert.KernelIdeal.RowSums0

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The array the region reads, as the region finds it, at its literal type. -/
abbrev src (c : Dev nD) : S4096x4096.Idx → EReal := V c main_arg0

/-- The printed index maps over the four grid points: the input block and the output block are the same block along the
    rows, neither moves along the second axis, and the row block stays below four. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 3 :=
  (by decide +kernel : ∀ t : Fin grid0.N, _)

/-- Every one of the four row blocks is some grid point's. -/
theorem idx_onto : ∀ q : Fin 4, ∃ t : Fin cfg0.N, win0_1.index t = ![q.val, 0] :=
  (by decide +kernel : ∀ q : Fin 4, ∃ t : Fin grid0.N, win0_1.index t = ![q.val, 0])

/-- What grid point `t` writes back is block `t` of the column of row sums of the array the region reads. -/
theorem flushed_eq (c : Dev nD) (t : Fin cfg0.N) :
    (dat0 V c).flushed 1 t = ((cfg0.win 1).blk t).view.read (Elt Ideal) (rowSums (src V c)) := by
  show (cfg0.win 1).cut (grid0.coords t) ((dat0 V c).after 1 t) = _
  rw [after0_1]
  unfold out0_1
  rw [View.canon_unit_zero hz]
  simp only [View.ld_unit_zero (S := S1024x4096) hz]
  obtain ⟨e0, e1, e2, e3⟩ := idx_facts t
  funext j
  obtain ⟨p, u, rfl⟩ : ∃ (p : Fin 1024) (u : Fin 1), j = ix2 p u := ⟨j 0, j 1, eq_ix2 j⟩
  refine (rowsum0_apply (iblk0 V c 0 t) p u).trans ?_
  show (∑ k : Fin 4096, src V c (((cfg0.win 0).blk t).view.emb (ix2 p k)))
    = ∑ k : Fin 4096, src V c (ix2 ((((cfg0.win 1).blk t).view.emb (ix2 p u)) 0) k)
  refine Finset.sum_congr rfl fun k _ => ?_
  refine congrArg (src V c) ?_
  funext a
  apply Fin.ext
  match a with
  | ⟨0, _⟩ => show win0_0.index t (0 : Fin 2) * 1024 + 1 * p.val = win0_1.index t (0 : Fin 2) * 1024 + 1 * p.val; omega
  | ⟨1, _⟩ => show win0_0.index t (1 : Fin 2) * 4096 + 1 * k.val = k.val; omega

/-- An index of the column is in point `t`'s block iff each coordinate is in the block's range on its axis. -/
theorem mem_blk (t : Fin cfg0.N) (i : S4096x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- The four blocks of 1024 rows tile the column: row `r` is in block `r / 1024`. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ := idx_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1 ≤ (i 1).val ∧ (i 1).val < win0_1.index t (1 : Fin 2) * 1 + 1; omega

/-- After the region, its output array is the column of row sums of the array it read. -/
theorem final (c : Dev nD) : (dat0 V c).arrAt 1 cfg0.N = rowSums (src V c) :=
  (dat0 V c).arrAt_eq_of_cover 1 (rowSums (src V c)) (fun t _ => flushed_eq V c t) cover

end Cert.KernelIdeal.RowSums0

end
-- ==== Proof.RowSums1.lean ====
/-
  The second row-sum region, blocks to array. The region reads a 4096 × 4096 array in four blocks of 1024 rows and writes,
  for each block, the column of that block's row sums; the four column blocks tile the 4096 × 1 output. So after the
  region the output array is ONE function of the array read: entry (r, ·) is the sum of row r. Stated at any contents
  `V` of the core's buffers when the region is entered.
-/
import proofs.«121372_j30133490549219_1_alg».proof.Proof.Gen.KernelIdeal.Frame
import proofs.«121372_j30133490549219_1_alg».proof.Proof.Payloads
import Idealize.ShloMosaic.Lib.Pipeline.Value

set_option maxRecDepth 16384

noncomputable section

namespace Cert.KernelIdeal.RowSums1

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The array the region reads, as the region finds it, at its literal type. -/
abbrev src (c : Dev nD) : S4096x4096.Idx → EReal := V c main_arg1

/-- The printed index maps over the four grid points: the input block and the output block are the same block along the
    rows, neither moves along the second axis, and the row block stays below four. -/
theorem idx_facts : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 3 :=
  (by decide +kernel : ∀ t : Fin grid1.N, _)

/-- Every one of the four row blocks is some grid point's. -/
theorem idx_onto : ∀ q : Fin 4, ∃ t : Fin cfg1.N, win1_1.index t = ![q.val, 0] :=
  (by decide +kernel : ∀ q : Fin 4, ∃ t : Fin grid1.N, win1_1.index t = ![q.val, 0])

/-- What grid point `t` writes back is block `t` of the column of row sums of the array the region reads. -/
theorem flushed_eq (c : Dev nD) (t : Fin cfg1.N) :
    (dat1 V c).flushed 1 t = ((cfg1.win 1).blk t).view.read (Elt Ideal) (rowSums (src V c)) := by
  show (cfg1.win 1).cut (grid1.coords t) ((dat1 V c).after 1 t) = _
  rw [after1_1]
  unfold out1_1
  rw [View.canon_unit_zero hz]
  simp only [View.ld_unit_zero (S := S1024x4096) hz]
  obtain ⟨e0, e1, e2, e3⟩ := idx_facts t
  funext j
  obtain ⟨p, u, rfl⟩ : ∃ (p : Fin 1024) (u : Fin 1), j = ix2 p u := ⟨j 0, j 1, eq_ix2 j⟩
  refine (rowsum1_apply (iblk1 V c 0 t) p u).trans ?_
  show (∑ k : Fin 4096, src V c (((cfg1.win 0).blk t).view.emb (ix2 p k)))
    = ∑ k : Fin 4096, src V c (ix2 ((((cfg1.win 1).blk t).view.emb (ix2 p u)) 0) k)
  refine Finset.sum_congr rfl fun k _ => ?_
  refine congrArg (src V c) ?_
  funext a
  apply Fin.ext
  match a with
  | ⟨0, _⟩ => show win1_0.index t (0 : Fin 2) * 1024 + 1 * p.val = win1_1.index t (0 : Fin 2) * 1024 + 1 * p.val; omega
  | ⟨1, _⟩ => show win1_0.index t (1 : Fin 2) * 4096 + 1 * k.val = k.val; omega

/-- An index of the column is in point `t`'s block iff each coordinate is in the block's range on its axis. -/
theorem mem_blk (t : Fin cfg1.N) (i : S4096x1.Idx) :
    i ∈ ((cfg1.win 1).blk t).view.set ↔ ∀ a : Fin 2, win1_1.index t a * S1024x1.size a ≤ (i a).val ∧ (i a).val < win1_1.index t a * S1024x1.size a + S1024x1.size a := by
  show i ∈ ((View.whole main_v1).slice (win1_1.rect t)).set ↔ _
  rw [View.set_slice_whole, Rect.mem_set_unit]
  exact Iff.rfl

/-- The four blocks of 1024 rows tile the column: row `r` is in block `r / 1024`. -/
theorem cover (i : S4096x1.Idx) : ∃ t : Fin cfg1.N, (cfg1.win 1).flush t = true ∧ i ∈ ((cfg1.win 1).blk t).view.set := by
  have hi0 : (i 0).val < 4096 := (i 0).isLt
  have hi1 : (i 1).val < 1 := (i 1).isLt
  obtain ⟨t, ht⟩ := idx_onto ⟨(i 0).val / 1024, by omega⟩
  have q0 : win1_1.index t (0 : Fin 2) = (i 0).val / 1024 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 1 ≤ (i 1).val ∧ (i 1).val < win1_1.index t (1 : Fin 2) * 1 + 1; omega

/-- After the region, its output array is the column of row sums of the array it read. -/
theorem final (c : Dev nD) : (dat1 V c).arrAt 1 cfg1.N = rowSums (src V c) :=
  (dat1 V c).arrAt_eq_of_cover 1 (rowSums (src V c)) (fun t _ => flushed_eq V c t) cover

end Cert.KernelIdeal.RowSums1

end
-- ==== Proof.Combine.lean ====
/-
  The combining region, blocks to array. The region reads a 4096 × 1 column in four blocks of 1024 rows, and two 1 × 4096
  rows whole at every grid point, and writes block `t` of a 4096 × 4096 array: entry (p, q) of the block is
  (column entry p + first row entry q) · second row entry q. The four blocks of 1024 rows tile the output, so after the
  region the output array is ONE function of the three arrays read. Stated at any contents `V` of the core's buffers
  when the region is entered, because the region is entered after two others and a stretch of host operations.
-/
import proofs.«121372_j30133490549219_1_alg».proof.Proof.Gen.KernelIdeal.Frame
import proofs.«121372_j30133490549219_1_alg».proof.Proof.Payloads
import Idealize.ShloMosaic.Lib.Pipeline.Value

set_option maxRecDepth 16384

noncomputable section

namespace Cert.KernelIdeal.Combine

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

/-- A column and a row added entry against entry, then scaled by a second row: `(r, q) ↦ (col r + row₁ q) · row₂ q`. -/
abbrev combined (col : S4096x1.Idx → EReal) (row₁ row₂ : S1x4096.Idx → EReal) : S4096x4096.Idx → EReal :=
  fun i => (col (ix2 (i 0) (0 : Fin 1)) + row₁ (ix2 (0 : Fin 1) (i 1))) * row₂ (ix2 (0 : Fin 1) (i 1))

variable (V : (c : Dev nD) → (b : Ref sig .tc) → Buf (Elt Ideal) ((c : Thread nD τ).loc b))

/-- The three arrays the region reads, as the region finds them, at their literal types. -/
abbrev col (c : Dev nD) : S4096x1.Idx → EReal := V c main_v0
abbrev row₁ (c : Dev nD) : S1x4096.Idx → EReal := V c main_v2
abbrev row₂ (c : Dev nD) : S1x4096.Idx → EReal := V c main_v3

/-- The printed index maps over the four grid points: the column's block and the output's block are the same block along
    the rows; the two rows' blocks and every second coordinate stay at zero; the row block stays below four. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every one of the four row blocks is some grid point's. -/
theorem idx_onto : ∀ q : Fin 4, ∃ t : Fin cfg2.N, win2_3.index t = ![q.val, 0] :=
  (by decide +kernel : ∀ q : Fin 4, ∃ t : Fin grid2.N, win2_3.index t = ![q.val, 0])

/-- What grid point `t` writes back is block `t` of the combination of the three arrays the region reads. -/
theorem flushed_eq (c : Dev nD) (t : Fin cfg2.N) :
    (dat2 V c).flushed 3 t = ((cfg2.win 3).blk t).view.read (Elt Ideal) (combined (col V c) (row₁ V c) (row₂ V c)) := by
  show (cfg2.win 3).cut (grid2.coords t) ((dat2 V c).after 3 t) = _
  rw [after2_3]
  unfold out2_3
  rw [View.canon_unit_zero hz]
  simp only [View.ld_unit_zero (S := S1024x1) hz, View.ld_unit_zero (S := S1x4096) hz]
  obtain ⟨e0, e1, e2, e3, e4, e5, e6, e7⟩ := idx_facts t
  funext j
  obtain ⟨p, q, rfl⟩ : ∃ (p : Fin 1024) (q : Fin 4096), j = ix2 p q := ⟨j 0, j 1, eq_ix2 j⟩
  refine (combine_apply (iblk2 V c 0 t) (iblk2 V c 1 t) (iblk2 V c 2 t) p q).trans ?_
  show (col V c (((cfg2.win 0).blk t).view.emb (ix2 p (0 : Fin 1))) + row₁ V c (((cfg2.win 1).blk t).view.emb (ix2 (0 : Fin 1) q)))
      * row₂ V c (((cfg2.win 2).blk t).view.emb (ix2 (0 : Fin 1) q))
    = (col V c (ix2 ((((cfg2.win 3).blk t).view.emb (ix2 p q)) 0) (0 : Fin 1))
        + row₁ V c (ix2 (0 : Fin 1) ((((cfg2.win 3).blk t).view.emb (ix2 p q)) 1)))
      * row₂ V c (ix2 (0 : Fin 1) ((((cfg2.win 3).blk t).view.emb (ix2 p q)) 1))
  have h0 : ((cfg2.win 0).blk t).view.emb (ix2 p (0 : Fin 1)) = ix2 ((((cfg2.win 3).blk t).view.emb (ix2 p q)) 0) (0 : Fin 1) := by
    funext a; apply Fin.ext
    match a with
    | ⟨0, _⟩ => show win2_0.index t (0 : Fin 2) * 1024 + 1 * p.val = win2_3.index t (0 : Fin 2) * 1024 + 1 * p.val; omega
    | ⟨1, _⟩ => show win2_0.index t (1 : Fin 2) * 1 + 1 * 0 = 0; omega
  have h1 : ((cfg2.win 1).blk t).view.emb (ix2 (0 : Fin 1) q) = ix2 (0 : Fin 1) ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 4096 + 1 * q.val = win2_3.index t (1 : Fin 2) * 4096 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 4096 + 1 * q.val = win2_3.index t (1 : Fin 2) * 4096 + 1 * q.val; omega
  rw [h0, h1, h2]
  rfl

/-- An index of the output is in point `t`'s block iff each coordinate is in the block's range on its axis. -/
theorem mem_blk (t : Fin cfg2.N) (i : S4096x4096.Idx) :
    i ∈ ((cfg2.win 3).blk t).view.set ↔ ∀ a : Fin 2, win2_3.index t a * S1024x4096.size a ≤ (i a).val ∧ (i a).val < win2_3.index t a * S1024x4096.size a + S1024x4096.size a := by
  show i ∈ ((View.whole main_v4).slice (win2_3.rect t)).set ↔ _
  rw [View.set_slice_whole, Rect.mem_set_unit]
  exact Iff.rfl

/-- The four blocks of 1024 rows tile the output: row `r` is in block `r / 1024`. -/
theorem cover (i : S4096x4096.Idx) : ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 4096 ≤ (i 1).val ∧ (i 1).val < win2_3.index t (1 : Fin 2) * 4096 + 4096; omega

/-- After the region, its output array is the combination of the three arrays it read. -/
theorem final (c : Dev nD) : (dat2 V c).arrAt 3 cfg2.N = combined (col V c) (row₁ V c) (row₂ V c) :=
  (dat2 V c).arrAt_eq_of_cover 3 (combined (col V c) (row₁ V c) (row₂ V c)) (fun t _ => flushed_eq V c t) cover

end Cert.KernelIdeal.Combine

end
-- ==== Proof.Spec.lean ====
/-
  The result both programs compute, as one function of the three argument arrays, index by index, on the extended reals:

      out[r, q] = (Σ_k x[r, k] + Σ_k w[q, k]) · b[q]

  a row sum of the first matrix, a row sum of the second, added, and scaled by the vector's entry. Addition of extended
  reals is commutative and associative, so the order in which either program adds a row does not matter, and no law that
  needs finite entries is used: the two sides are the same arrangement.
-/
import Idealize.ShloMosaic.PureOps.Ideal
import Idealize.ShloMosaic.Lib.ValueIdx

noncomputable section

namespace Cert.Spec

open Idealize.ShloMosaic Idealize.ShloMosaic.ValueIdx

/-- `(r, q) ↦ (Σ_k x (r, k) + Σ_k w (q, k)) · b q`. -/
def result (x w : (⟨2, ![4096, 4096]⟩ : Shape).Idx → EReal) (b : (⟨1, ![4096]⟩ : Shape).Idx → EReal) :
    (⟨2, ![4096, 4096]⟩ : Shape).Idx → EReal :=
  fun i => (∑ k : Fin 4096, x (ix2 (i 0) k) + ∑ k : Fin 4096, w (ix2 (i 1) k)) * b (ix1 (i 1))

end Cert.Spec

end
-- ==== Proof.LibColumnRow.lean ====
/-
  A column read as a row. Reshaping an `[a, 1]` array to `[1, a]` keeps the row-major order of its `a` entries, so the
  row's entry `q` is the column's entry `q`. (The library's layout file has the vector-to-row and row-to-vector forms;
  this is the column-to-row form beside them.) Nothing here names a program.
-/
import Idealize.ShloMosaic.Lib.ValueLayout

namespace Cert.ColumnRow

open Idealize.ShloMosaic Idealize.ShloMosaic.ValueIdx

variable {α : Type}

/-- An `[a, 1]` column cast to the row `[1, a]` reads, at `(0, q)`, the column at `(q, 0)`. -/
theorem shapeCast_a1_1a_apply {a : ℕ} (x : (⟨2, ![a, 1]⟩ : Shape).Idx → α) (h : (⟨2, ![a, 1]⟩ : Shape).ShapeCasts ⟨2, ![1, a]⟩)
    (q : Fin a) : shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    rw [Nat.mul_one, Nat.add_zero, Nat.zero_mul, Nat.zero_add])

end Cert.ColumnRow
-- ==== Proof.KernelValue.lean ====
/-
  The kernel program's result is the specification. Its @main runs three regions with two reshapes between the second and
  the third: the first region leaves the column of row sums of the first matrix, the second the column of row sums of the
  second matrix, the host reshapes that column and the vector into rows, and the third region combines column and rows.
  Followed through the buffer contents at each boundary: no region and no host operation writes an argument, the first
  column is untouched by the second region and by the reshapes, and a column reshaped to a row keeps its entries in order.
  So the result array at (r, q) is (Σ_k x[r, k] + Σ_k w[q, k]) · b[q].
-/
import proofs.«121372_j30133490549219_1_alg».proof.Proof.KernelRun
import proofs.«121372_j30133490549219_1_alg».proof.Proof.RowSums0
import proofs.«121372_j30133490549219_1_alg».proof.Proof.RowSums1
import proofs.«121372_j30133490549219_1_alg».proof.Proof.Combine
import proofs.«121372_j30133490549219_1_alg».proof.Proof.Spec
import proofs.«121372_j30133490549219_1_alg».proof.Proof.LibColumnRow
import Idealize.ShloMosaic.Lib.StableHlo.Run
import Idealize.ShloMosaic.Lib.ValueLayout

set_option maxRecDepth 16384

noncomputable section

namespace Cert.KernelIdeal.Result

open Cert.KernelIdeal Cert.KernelIdeal.Gen Cert.KernelIdeal.Body Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The three argument arrays as launched, at their literal types. -/
abbrev x (c : Dev nD) : S4096x4096.Idx → EReal := m ((c.tc : Thread nD τ).loc main_arg0)
abbrev w (c : Dev nD) : S4096x4096.Idx → EReal := m ((c.tc : Thread nD τ).loc main_arg1)
abbrev b (c : Dev nD) : S4096.Idx → EReal := m ((c.tc : Thread nD τ).loc main_arg2)

/-- The column the third region reads is the first matrix's row sums: the first region left them there, and neither the
    second region nor the reshapes write that buffer. -/
theorem col_eq (c : Dev nD) : Combine.col (V3 m ρ) c = rowSums (x m c) := by
  have e3 : W3 m ρ c (Proc.devRef .tc main_v0) = W2 m ρ c (Proc.devRef .tc main_v0) := by
    show StableHlo.after hostOps2 (W2 m ρ c) (Proc.devRef .tc main_v0) = _
    after_results
  exact e3.trans ((W2_of_ne m ρ c main_v0 (by decide)).trans ((W1_arr m ρ c 1).trans (RowSums0.final (V0 m ρ) c)))

/-- The second region's output is the second matrix's row sums: it reads the second argument as launched, the first
    region having left that buffer alone. -/
theorem col₁_eq (c : Dev nD) : W2 m ρ c (Proc.devRef .tc main_v1) = rowSums (w m c) :=
  (W2_arr m ρ c 1).trans ((RowSums1.final (V1 m ρ) c).trans
    (congrArg rowSums (show RowSums1.src (V1 m ρ) c = w m c from W1_of_ne m ρ c main_arg1 (by decide))))

/-- The first row the third region reads, at `(0, q)`: the second matrix's row sum `q`, the column reshaped to a row. -/
theorem row₁_apply (c : Dev nD) (q : Fin 4096) :
    Combine.row₁ (V3 m ρ) c (ix2 (0 : Fin 1) q) = ∑ k : Fin 4096, w m c (ix2 q k) := by
  have e : Combine.row₁ (V3 m ρ) c
      = fun i => shapeCast S1x4096 (W2 m ρ c (Proc.devRef .tc main_v1)) shapeCasts_S4096x1_S1x4096 i := by
    show StableHlo.after hostOps2 (W2 m ρ c) (Proc.devRef .tc main_v2) = _
    after_results
    rfl
  rw [e]
  show shapeCast S1x4096 (W2 m ρ c (Proc.devRef .tc main_v1)) shapeCasts_S4096x1_S1x4096 (ix2 (0 : Fin 1) q) = _
  rw [col₁_eq]
  exact Cert.ColumnRow.shapeCast_a1_1a_apply _ _ q

/-- The second row the third region reads, at `(0, q)`: the vector's entry `q`, the vector reshaped to a row. -/
theorem row₂_apply (c : Dev nD) (q : Fin 4096) :
    Combine.row₂ (V3 m ρ) c (ix2 (0 : Fin 1) q) = b m c (ix1 q) := by
  have e : Combine.row₂ (V3 m ρ) c
      = fun i => shapeCast S1x4096 (W2 m ρ c (Proc.devRef .tc main_arg2)) shapeCasts_S4096_S1x4096 i := by
    show StableHlo.after hostOps2 (W2 m ρ c) (Proc.devRef .tc main_v3) = _
    after_results
    rfl
  have e1 : W2 m ρ c (Proc.devRef .tc main_arg2) = b m c :=
    (W2_of_ne m ρ c main_arg2 (by decide)).trans (W1_of_ne m ρ c main_arg2 (by decide))
  rw [e]
  show shapeCast S1x4096 (W2 m ρ c (Proc.devRef .tc main_arg2)) shapeCasts_S4096_S1x4096 (ix2 (0 : Fin 1) q) = _
  rw [e1]
  exact shapeCast_a_1a_apply _ _ (0 : Fin 1) q

/-- The result array after the last region is the specification of the arguments as launched. -/
theorem result_eq (c : Dev nD) :
    W4 m ρ c (Proc.devRef .tc main_v4) = Cert.Spec.result (x m c) (w m c) (b m c) := by
  refine (W4_arr m ρ c 3).trans ((Combine.final (V3 m ρ) c).trans ?_)
  funext i
  obtain ⟨r, q, rfl⟩ : ∃ (r : Fin 4096) (q : Fin 4096), i = ix2 r q := ⟨i 0, i 1, eq_ix2 i⟩
  show (Combine.col (V3 m ρ) c (ix2 r (0 : Fin 1)) + Combine.row₁ (V3 m ρ) c (ix2 (0 : Fin 1) q))
      * Combine.row₂ (V3 m ρ) c (ix2 (0 : Fin 1) q)
    = (∑ k : Fin 4096, x m c (ix2 r k) + ∑ k : Fin 4096, w m c (ix2 q k)) * b m c (ix1 q)
  rw [col_eq, row₁_apply, row₂_apply]

/-- The run of the kernel program: every weakly fair execution terminates, nothing faulting, the result array at the
    specification of the arguments and the arguments unchanged. -/
theorem run : θ_run defs (onTc (τ := τ) (main (F := Ideal))) ⟨m, fun _ => 0, ρ⟩ (fun r => ∀ c : Dev nD,
      r.2.mem ((c.tc : Thread nD τ).loc main_v4) = Cert.Spec.result (x m c) (w m c) (b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.Named.run_named (F := Ideal) m ρ)

end Cert.KernelIdeal.Result

end
-- ==== Proof.RefValue.lean ====
/-
  The reference's result is the specification. Its @main sums each row of both matrices from a zero initial value, spreads
  the first sums down a column and the second along a row, adds the two spread arrays, and multiplies by the vector spread
  along a row. Read at an index (r, q) through the generated stage lemmas, that is 0 + Σ_k x[r, k] plus 0 + Σ_k w[q, k],
  times b[q]; the zero word is the real 0.
-/
import proofs.«121372_j30133490549219_1_alg».proof.Proof.Gen.ReferenceIdeal.Read
import proofs.«121372_j30133490549219_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-- The reference's last stage, as a function of the three arguments, is the specification. -/
theorem val_eq_result (x0 x1 : (⟨S4096x4096, .f32⟩ : BufTy).Contents (Elt Ideal)) (x2 : (⟨S4096, .f32⟩ : BufTy).Contents (Elt Ideal)) :
    val_main_v9 (F := Ideal) x0 x1 x2 = Cert.Spec.result x0 x1 x2 := by
  funext i
  have e0 : ∀ k : Fin 4096, idx_main_v0 (idx_main_v1 (idx_main_v4 i)) k = ix2 (i 0) k := fun k =>
    funext fun a => Fin.ext (by match a with | ⟨0, _⟩ => rfl | ⟨1, _⟩ => rfl)
  have e1 : ∀ k : Fin 4096, idx_main_v2 (idx_main_v3 (idx_main_v5 i)) k = ix2 (i 1) k := fun k =>
    funext fun a => Fin.ext (by match a with | ⟨0, _⟩ => rfl | ⟨1, _⟩ => rfl)
  have e2 : idx_main_v7 (idx_main_v8 i) = ix1 (i 1) :=
    funext fun a => Fin.ext (by match a with | ⟨0, _⟩ => rfl)
  rw [val_main_v9_apply, val_main_v6_apply, val_main_v4_apply, val_main_v1_apply, val_main_v0_apply,
    val_main_v5_apply, val_main_v3_apply, val_main_v2_apply, val_main_v8_apply, val_main_v7_apply,
    val_main_cst_apply, val_main_cst_0_apply]
  simp only [e0, e1, e2, Ideal.addf_def, Ideal.mulf_def, Ideal.ofBits_def, Ideal.ofBits_zero_f32, zero_add]
  rfl

end Cert.ReferenceIdeal.RefValue

end
-- ==== Proof.lean ====
/-
  The kernel program computes out[r, q] = (Σ_k x[r, k] + Σ_k w[q, k]) · b[q] in three launches: the row sums of x, the
  row sums of w, and a combining pass that adds the two (one as a column, one as a row) and scales by b as a row. The
  reference computes the same expression with whole-array operations. On the extended reals both are the SAME
  arrangement — a row sum plus a row sum, times an entry — so the two results agree index by index with no law beyond
  reading each side: no distributivity, hence no use of the inputs being finite.

  The three frames: the two kernel programs' are the generated frame certificates; the reference's is its generated run
  with the result dropped. The idealization rewrote nothing, so that conjunct is trivial. For the value conjunct the
  kernel program's run is followed region by region to the specification (Proof/KernelValue.lean over RowSums0, RowSums1,
  Combine and Payloads), and the reference's generated run is read stage by stage to the same specification
  (Proof/RefValue.lean); the arguments agree by hypothesis.
-/
import proofs.«121372_j30133490549219_1_alg».proof.Defs
import proofs.«121372_j30133490549219_1_alg».proof.Proof.Gen.Kernel
import proofs.«121372_j30133490549219_1_alg».proof.Proof.Gen.Kernel.Skeleton
import proofs.«121372_j30133490549219_1_alg».proof.Proof.Gen.Kernel.Launch
import proofs.«121372_j30133490549219_1_alg».proof.Proof.Gen.Kernel.Points
import proofs.«121372_j30133490549219_1_alg».proof.Proof.Gen.Kernel.Frame
import proofs.«121372_j30133490549219_1_alg».proof.Proof.Gen.KernelIdeal
import proofs.«121372_j30133490549219_1_alg».proof.Proof.Gen.KernelIdeal.Skeleton
import proofs.«121372_j30133490549219_1_alg».proof.Proof.Gen.KernelIdeal.Launch
import proofs.«121372_j30133490549219_1_alg».proof.Proof.Gen.KernelIdeal.Points
import proofs.«121372_j30133490549219_1_alg».proof.Proof.Gen.KernelIdeal.Frame
import proofs.«121372_j30133490549219_1_alg».proof.Proof.Gen.ReferenceIdeal
import proofs.«121372_j30133490549219_1_alg».proof.Proof.Gen.ReferenceIdeal.Run
import proofs.«121372_j30133490549219_1_alg».proof.Proof.Gen.ReferenceIdeal.Read
import proofs.«121372_j30133490549219_1_alg».proof.Proof.Gen.Pre_finite_inputs
import proofs.«121372_j30133490549219_1_alg».proof.Proof.KernelValue
import proofs.«121372_j30133490549219_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both idealized programs end with the result array at
    `(r, q) ↦ (Σ_k x (r, k) + Σ_k w (q, k)) · b q` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.result (Cert.KernelIdeal.Result.x m c) (Cert.KernelIdeal.Result.w m c) (Cert.KernelIdeal.Result.b m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.val_eq_result,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
